-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256x256 .f32) (main_arg5 : FVec F S256 .f32) (main_arg6 : FVec F S256 .f32) (main_arg7 : FVec F S256x1 .f32) (main_arg8 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S256x256 .f32) (main_arg3 : FVec F S256 .f32) (main_arg4 : FVec F S256x256 .f32) (main_arg5 : FVec F S256 .f32) (main_arg6 : FVec F S256 .f32) (main_arg7 : FVec F S256x1 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x256 : Shape := ⟨2, ![128, 256]⟩
abbrev S1x256 : Shape := ⟨2, ![1, 256]⟩
abbrev S1x1 : Shape := ⟨2, ![1, 1]⟩
abbrev S50x1x200 : Shape := ⟨3, ![50, 1, 200]⟩
abbrev S200x10000 : Shape := ⟨2, ![200, 10000]⟩
abbrev S1x1x200 : Shape := ⟨3, ![1, 1, 200]⟩
abbrev S200x128 : Shape := ⟨2, ![200, 128]⟩
abbrev S200x256 : Shape := ⟨2, ![200, 256]⟩
abbrev S200 : Shape := ⟨1, ![200]⟩
abbrev S10000 : Shape := ⟨1, ![10000]⟩

abbrev nBuf : Space → Nat
  | .hbm => 18
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S128x256, .f32⟩
  | .hbm, ⟨10, _⟩ => ⟨S128x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S50x1x200, .f32⟩
  | .hbm, ⟨17, _⟩ => ⟨S10000, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x256, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S1x1x200, .f32⟩
  | .local _ .vmem, ⟨12, _⟩ => ⟨S1x1x200, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v3 : BitVec 32 := Scalar.muli arg0 c200_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x256_S128x256_0_0 : S256x256.Slices ![0, 0] S128x256
  slices_S256x256_S128x256_128_0 : S256x256.Slices ![128, 0] S128x256
  shapeCasts_S256_S1x256 : S256.ShapeCasts S1x256
  shapeCasts_S256x1_S1x256 : S256x1.ShapeCasts S1x256
  shapeCasts_S1_S1x1 : S1.ShapeCasts S1x1
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S200x128 : 0 < S200x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x256_S256x256_0_0 : ∀ a, (![0, 0] : Fin 2 → Nat) a + S256x256.size a ≤ S256x256.size a
  h_S256x256 : 0 < S256x256.numel
  reduces_S200x256_S200 : S200x256.Reduces [1] S200
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1x200_S1x1x200_0_0_0 : ∀ a, (![0, 0, 0] : Fin 3 → Nat) a + S1x1x200.size a ≤ S1x1x200.size a
  h_S1x1x200 : 0 < S1x1x200.numel
  shapeCasts_S1x1x200_S200 : S1x1x200.ShapeCasts S200
  shapeCasts_S200_S1x1x200 : S200.ShapeCasts S1x1x200
  shapeCasts_S50x1x200_S10000 : S50x1x200.ShapeCasts S10000
  dot_S200x10000_S10000x128_S200x128_1_0_0_1_n_n_wf : DotDims.WF S200x10000 S10000x128 S200x128 [1] [0] [0] [1] [] []
  dot_S200x128_S128x256_S200x256_1_0_0_1_n_n_wf : DotDims.WF S200x128 S128x256 S200x256 [1] [0] [0] [1] [] []
  dot_S200x256_S256x256_S200x256_1_0_0_1_n_n_wf : DotDims.WF S200x256 S256x256 S200x256 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x200.size a ≤ S50x1x200.size a
  hwx0_10 : ∀ i : grid0.Coords, EltTy.bits .f32 = 32 ∨ (Rect.block (s := S50x1x200) S1x1x200.size (cc0_transform_10 i) (hinb0_10 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1x200.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S10000x256 : Shape := ⟨2, ![10000, 256]⟩
abbrev S1x256 : Shape := ⟨2, ![1, 256]⟩
abbrev S_ : Shape := ⟨0, ![]⟩
abbrev S10000x1 : Shape := ⟨2, ![10000, 1]⟩
abbrev S1x1 : Shape := ⟨2, ![1, 1]⟩
abbrev S10000 : Shape := ⟨1, ![10000]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S10000x128, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S1x256, .f32⟩
  | .hbm, ⟨20, _⟩ => ⟨S10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .i1⟩
  | .hbm, ⟨25, _⟩ => ⟨S1x256, .f32⟩
  | .hbm, ⟨26, _⟩ => ⟨S10000x256, .f32⟩
  | .hbm, ⟨27, _⟩ => ⟨S10000x256, .f32⟩
  | .hbm, ⟨28, _⟩ => ⟨S10000x256, .f32⟩
  | .hbm, ⟨29, _⟩ => ⟨S10000x1, .f32⟩
  | .hbm, ⟨30, _⟩ => ⟨S1x1, .f32⟩
  | .hbm, ⟨31, _⟩ => ⟨S10000x1, .f32⟩
  | .hbm, ⟨32, _⟩ => ⟨S10000x1, .f32⟩
  | .hbm, ⟨33, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  dot_S10000x10000_S10000x128_S10000x128_1_0_0_1_n_n_wf : DotDims.WF S10000x10000 S10000x128 S10000x128 [1] [0] [0] [1] [] []
  dot_S10000x256_S256x256_S10000x256_1_0_0_1_n_n_wf : DotDims.WF S10000x256 S256x256 S10000x256 [1] [0] [0] [1] [] []
  dot_S10000x256_S256x1_S10000x1_1_0_0_1_n_n_wf : DotDims.WF S10000x256 S256x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.KernelPiece.lean ====
/-
  What the kernel's body leaves in the output's staging buffer at a grid point, as a value: its one store covers the
  [1, 1, 200] block, so the buffer holds the store's payload — the body's arithmetic of what its loads read. Every load
  but one reads a whole staging buffer; the remaining one reads the 200 rows of the resident feature array that start
  at row 200 · (the point's coordinate).
-/
import proofs.«151753_g46969762349347_cont_8to1_c_541_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The stripe's own feature rows: the 200 rows of the resident feature array from the point's first node on. -/
abbrev ownRows (i : grid0.Coords) (x1 : Vec F S10000x128 .f32) : Vec F S200x128 .f32 :=
  View.ld x1 (Rect.unit (s := S10000x128) (k0_off1 i) S200x128.size (k0_off1_inb i))

/-- The output's staging buffer after the body: the payload of its one covering store, over the loaded blocks. -/
theorem out_A (c : Dev nD) (i : grid0.Coords) (a1 : Memref sig .tc .vmem S200x10000 .f32) (h1 : a1.IsWhole) (a2 : Memref sig .tc .vmem S10000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x1 .f32) (h10 : a10.IsWhole) (a11 : Memref sig .tc .vmem S1x1x200 .f32) (h11 : a11.IsWhole)
    (x0 : Vec F S200x10000 .f32) (x1 : Vec F S10000x128 .f32) (x2 : Vec F S128x256 .f32) (x3 : Vec F S128x256 .f32) (x4 : Vec F S1x256 .f32) (x5 : Vec F S256x256 .f32) (x6 : Vec F S1x256 .f32) (x7 : Vec F S1x256 .f32) (x8 : Vec F S1x256 .f32) (x9 : Vec F S1x1 .f32) :
    out0_A_10 c i a1 h1 a2 h2 a3 h3 a4 h4 a5 h5 a6 h6 a7 h7 a8 h8 a9 h9 a10 h10 a11 h11 x0 x1 x2 x3 x4 x5 x6 x7 x8 x9
      = k0_pay1 (k0_pay2 x0 x1 (ownRows i x1) x2 x3 x4 x5 x6 x7) x8 x9 := by
  unfold out0_A_10
  rw [View.read_writes_eq_canon _ _ _ (cover0_A_10 c i a1 h1 a2 h2 a3 h3 a4 h4 a5 h5 a6 h6 a7 h7 a8 h8 a9 h9 a10 h10 a11 h11 x0 x1 x2 x3 x4 x5 x6 x7 x8 x9)]
  unfold kernelRun0_A
  dsimp only
  sl_unfold_words
  rw [View.canon_unit_zero hz3]
  simp only [View.readAt_eq_ld, h1.read_unread, h2.read_unread, h3.read_unread, h4.read_unread, h5.read_unread,
    h6.read_unread, h7.read_unread, h8.read_unread, h9.read_unread, h10.read_unread,
    View.ld_unit_zero (S := S200x10000) hz2, View.ld_unit_zero (S := S10000x128) hz2, View.ld_unit_zero (S := S128x256) hz2,
    View.ld_unit_zero (S := S1x256) hz2, View.ld_unit_zero (S := S256x256) hz2, View.ld_unit_zero (S := S1x1) hz2]
  rfl

end Cert.KernelIdeal.KVal

end
-- ==== Proof.Spec.lean ====
/-
  The node scores of a graph-convolution layer followed by a two-layer classifier, as ONE function of the nine
  argument arrays, index by index, over the extended reals.

  For node `i`:
    agg i f   = ∑ₙ adj[i,n] · x[n,f]                                   the neighbourhood mean of feature f
    pre1 i k  = (∑_f x[i,f] · W[f,k] + ∑_f agg i f · W[128+f,k]) + b[k]  the convolution on [x, agg], the weight split in
                                                                        its top and bottom halves
    hid i k   = max (pre1 i k) 0
    pre2 i j  = (∑ₖ hid i k · W1[k,j]) + b1[j]
    act i j   = pre2 i j where it is ≥ 0, else alpha[j] · pre2 i j       the per-channel leaky unit
    score i   = (∑ⱼ act i j · W2[j,0]) + b2[0]

  The one law used between the two programs: a sum over 256 = 128 + 128 coordinates is the sum over the first 128 plus
  the sum over the last 128 (`sum_halves`) — addition of extended reals is commutative and associative, so no
  finiteness is needed.
-/
import Idealize.ShloMosaic.PureOps.Ideal
import Idealize.ShloMosaic.Lib.ValueIdx

noncomputable section

open scoped BigOperators
open Idealize.ShloMosaic Idealize.ShloMosaic.ValueIdx

namespace Cert.GcnSpec

/-- A rank-2 array of extended reals of the given extents, and a rank-1 one. -/
abbrev Arr2 (n0 n1 : Nat) : Type := (⟨2, ![n0, n1]⟩ : Shape).Idx → EReal
abbrev Arr1 (n : Nat) : Type := (⟨1, ![n]⟩ : Shape).Idx → EReal

/-- The float zero both programs compare with and clamp at (the same word on both sides: never evaluated). -/
abbrev zf : EReal := Ideal.ofBits .f32 0x00000000#32

/-- Row `f` of the top half of the convolution's weight, and of its bottom half. -/
abbrev lo (f : Fin 128) : Fin 256 := ⟨f.val, by have := f.isLt; omega⟩
abbrev hi (f : Fin 128) : Fin 256 := ⟨128 + f.val, by have := f.isLt; omega⟩

section
variable (x : Arr2 10000 128) (adj : Arr2 10000 10000) (W : Arr2 256 256) (b : Arr1 256) (W1 : Arr2 256 256)
  (b1 : Arr1 256) (alpha : Arr1 256) (W2 : Arr2 256 1) (b2 : Arr1 1)

/-- The neighbourhood mean of feature `f` at node `i`. -/
def agg (i : Fin 10000) (f : Fin 128) : EReal := ∑ n : Fin 10000, adj (ix2 i n) * x (ix2 n f)

/-- The convolution before its clamp: the node's own features through the top half of `W`, the aggregated ones
    through the bottom half, and the bias. -/
def pre1 (i : Fin 10000) (k : Fin 256) : EReal :=
  (∑ f : Fin 128, x (ix2 i f) * W (ix2 (lo f) k) + ∑ f : Fin 128, agg x adj i f * W (ix2 (hi f) k)) + b (ix1 k)

/-- The convolution's output. -/
def hid (i : Fin 10000) (k : Fin 256) : EReal := max (pre1 x adj W b i k) zf

/-- The classifier's first linear layer. -/
def pre2 (i : Fin 10000) (j : Fin 256) : EReal := (∑ k : Fin 256, hid x adj W b i k * W1 (ix2 k j)) + b1 (ix1 j)

/-- The leaky unit with a slope per channel. -/
def act (i : Fin 10000) (j : Fin 256) : EReal :=
  Scalar.select (FloatOps.cmpf (F := Ideal) (φ := .f32) .oge (pre2 x adj W b W1 b1 i j) zf) (pre2 x adj W b W1 b1 i j)
    (alpha (ix1 j) * pre2 x adj W b W1 b1 i j)

/-- The node's score. -/
def score (i : Fin 10000) : EReal :=
  (∑ j : Fin 256, act x adj W b W1 b1 alpha i j * W2 (ix2 j (0 : Fin 1))) + b2 (ix1 (0 : Fin 1))

/-- All the scores, as the result array. -/
def scores : (⟨1, ![10000]⟩ : Shape).Idx → EReal := fun i => score x adj W b W1 b1 alpha W2 b2 (i 0)

end

/-- A sum over 256 coordinates is the sum over the first 128 plus the sum over the last 128. -/
theorem sum_halves (g : Fin 256 → EReal) : ∑ k : Fin 256, g k = ∑ f : Fin 128, g (lo f) + ∑ f : Fin 128, g (hi f) := by
  exact Fin.sum_univ_add (a := 128) (b := 128) (fun k : Fin (128 + 128) => g k)

end Cert.GcnSpec

end
-- ==== Proof.BlockSpec.lean ====
/-
  One stripe of 200 nodes, as the kernel sees it at a grid point: the stripe's rows of the adjacency, the whole feature
  array, the stripe's own rows of the features, the two halves of the convolution's weight, and the biases, slopes and
  last layer as rows of a [1, 256] array. `bscore … r` is the score of the stripe's node `r` computed from those blocks;
  `bscore_eq_score` says it is the specification's score of node `i` once each block is the part of the argument arrays
  it was cut from.
-/
import proofs.«151753_g46969762349347_cont_8to1_c_541_7_alg».proof.Proof.Spec

noncomputable section

open scoped BigOperators
open Idealize.ShloMosaic Idealize.ShloMosaic.ValueIdx

namespace Cert.GcnSpec

section
variable (adjb : Arr2 200 10000) (xa : Arr2 10000 128) (xm : Arr2 200 128) (wt wb : Arr2 128 256) (bb : Arr2 1 256)
  (w1 : Arr2 256 256) (b1r al w2r : Arr2 1 256) (b2s : Arr2 1 1)

/-- The neighbourhood mean of feature `f` at the stripe's node `r`. -/
def bagg (r : Fin 200) (f : Fin 128) : EReal := ∑ n : Fin 10000, adjb (ix2 r n) * xa (ix2 n f)

/-- The convolution before its clamp: own features through the top half, aggregated ones through the bottom half. -/
def bpre1 (r : Fin 200) (k : Fin 256) : EReal :=
  (∑ f : Fin 128, xm (ix2 r f) * wt (ix2 f k) + ∑ f : Fin 128, bagg adjb xa r f * wb (ix2 f k)) + bb (ix2 (0 : Fin 1) k)

def bhid (r : Fin 200) (k : Fin 256) : EReal := max (bpre1 adjb xa xm wt wb bb r k) zf

def bpre2 (r : Fin 200) (j : Fin 256) : EReal :=
  (∑ k : Fin 256, bhid adjb xa xm wt wb bb r k * w1 (ix2 k j)) + b1r (ix2 (0 : Fin 1) j)

def bact (r : Fin 200) (j : Fin 256) : EReal :=
  Scalar.select (FloatOps.cmpf (F := Ideal) (φ := .f32) .oge (bpre2 adjb xa xm wt wb bb w1 b1r r j) zf)
    (bpre2 adjb xa xm wt wb bb w1 b1r r j) (al (ix2 (0 : Fin 1) j) * bpre2 adjb xa xm wt wb bb w1 b1r r j)

def bscore (r : Fin 200) : EReal :=
  (∑ j : Fin 256, bact adjb xa xm wt wb bb w1 b1r al r j * w2r (ix2 (0 : Fin 1) j)) + b2s (ix2 (0 : Fin 1) (0 : Fin 1))

end

/-- The node a stripe's row stands for: stripe `t` holds the nodes 200 t … 200 t + 199. -/
def node (t : Fin 50) (r : Fin 200) : Fin 10000 := ⟨200 * t.val + r.val, by have := t.isLt; have := r.isLt; omega⟩

/-- The stripe's score is the specification's, once every block is the part of the arrays it was cut from: the stripe's
    rows of `adj` and `x` are rows `i` of the arrays, the resident blocks the whole arrays, the halves of the weight its top and bottom rows, and each [1, 256]
    row the rank-1 array it was reshaped from (`W2`'s one column laid as a row). -/
theorem bscore_eq_score (x : Arr2 10000 128) (adj : Arr2 10000 10000) (W : Arr2 256 256) (b : Arr1 256) (W1 : Arr2 256 256)
    (b1 : Arr1 256) (alpha : Arr1 256) (W2 : Arr2 256 1) (b2 : Arr1 1)
    (adjb : Arr2 200 10000) (xa : Arr2 10000 128) (xm : Arr2 200 128) (wt wb : Arr2 128 256) (bb : Arr2 1 256)
    (w1 : Arr2 256 256) (b1r al w2r : Arr2 1 256) (b2s : Arr2 1 1) (i : Fin 10000) (r : Fin 200)
    (hadj : ∀ n, adjb (ix2 r n) = adj (ix2 i n)) (hxa : ∀ n f, xa (ix2 n f) = x (ix2 n f))
    (hxm : ∀ f, xm (ix2 r f) = x (ix2 i f)) (hw1 : ∀ k j, w1 (ix2 k j) = W1 (ix2 k j))
    (hwt : ∀ f k, wt (ix2 f k) = W (ix2 (lo f) k)) (hwb : ∀ f k, wb (ix2 f k) = W (ix2 (hi f) k))
    (hbb : ∀ k, bb (ix2 (0 : Fin 1) k) = b (ix1 k)) (hb1 : ∀ j, b1r (ix2 (0 : Fin 1) j) = b1 (ix1 j))
    (hal : ∀ j, al (ix2 (0 : Fin 1) j) = alpha (ix1 j)) (hw2 : ∀ j, w2r (ix2 (0 : Fin 1) j) = W2 (ix2 j (0 : Fin 1)))
    (hb2 : b2s (ix2 (0 : Fin 1) (0 : Fin 1)) = b2 (ix1 (0 : Fin 1))) :
    bscore adjb xa xm wt wb bb w1 b1r al w2r b2s r = score x adj W b W1 b1 alpha W2 b2 i := by
  simp only [bscore, bact, bpre2, bhid, bpre1, bagg, score, act, pre2, hid, pre1, agg, hadj, hxa, hxm, hw1, hwt, hwb, hbb,
    hb1, hal, hw2, hb2]

end Cert.GcnSpec

end
-- ==== Proof.KernelReads.lean ====
/-
  What each window's block holds at a grid point, in terms of the argument arrays. The adjacency's window moves one
  stripe of 200 rows per point; the output's window one [1, 1, 200] block per point; every other window's block is its
  whole array, at every point. The arrays the host lines before the call wrote are read back: the two halves of the
  convolution's weight are its rows 0–127 and 128–255, and each [1, 256] row (and the [1, 1] scalar) is the rank-1 array
  it was reshaped from — the last layer's [256, 1] column laid as a row.
-/
import proofs.«151753_g46969762349347_cont_8to1_c_541_7_alg».proof.Proof.Gen.KernelIdeal.Frame
import proofs.«151753_g46969762349347_cont_8to1_c_541_7_alg».proof.Proof.KernelPiece
import proofs.«151753_g46969762349347_cont_8to1_c_541_7_alg».proof.Proof.BlockSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.GcnSpec

variable (m : (ℓ : Loc nD τ sig) → Buf (Elt Ideal) ℓ)

/-! ## The printed index maps, decided over the grid -/

/-- The adjacency's window is at stripe `t`; so is the output's; the dynamic load starts at row 200 t. -/
theorem idx_0 : ∀ t : Fin cfg0.N, win0_0.index t (0 : Fin 2) = t.val ∧ win0_0.index t (1 : Fin 2) = 0 :=
  (by decide +kernel : ∀ t : Fin grid0.N, _)
theorem idx_10 : ∀ t : Fin cfg0.N, win0_10.index t (0 : Fin 3) = t.val ∧ win0_10.index t (1 : Fin 3) = 0
    ∧ win0_10.index t (2 : Fin 3) = 0 :=
  (by decide +kernel : ∀ t : Fin grid0.N, _)
theorem off_own : ∀ t : Fin cfg0.N, k0_off1 (grid0.coords t) (0 : Fin 2) = 200 * t.val ∧ k0_off1 (grid0.coords t) (1 : Fin 2) = 0 :=
  (by decide +kernel : ∀ t : Fin grid0.N, _)
/-- Every other window stays at block (0, 0). -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)

theorem N_50 (t : Fin cfg0.N) : t.val < 50 := by have h : cfg0.N = 50 := N_0; have := t.isLt; omega

/-- The grid point as a stripe number. -/
abbrev stripe (t : Fin cfg0.N) : Fin 50 := ⟨t.val, N_50 t⟩

/-! ## The blocks read through their windows -/

/-- The adjacency's block at point `t` is rows 200 t … 200 t + 199 of the array. -/
theorem blk0_read (c : Dev nD) (t : Fin cfg0.N) (r : Fin 200) (n : Fin 10000) :
    (iblk m c 0 t : Vec Ideal S200x10000 .f32) (ix2 r n) = V m c main_arg1 (ix2 (node (stripe t) r) n) := by
  obtain ⟨e0, e1⟩ := idx_0 t
  show V m c main_arg1 (((cfg0.win 0).blk t).view.emb (ix2 r n)) = V m c main_arg1 (ix2 (node (stripe t) r) n)
  refine congrArg (V m c main_arg1) (funext fun a => Fin.ext ?_)
  match a with
  | ⟨0, _⟩ => show win0_0.index t (0 : Fin 2) * 200 + 1 * r.val = 200 * t.val + r.val; rw [e0]; omega
  | ⟨1, _⟩ => show win0_0.index t (1 : Fin 2) * 10000 + 1 * n.val = n.val; rw [e1]; omega

/-- Window 1's block is its whole array at every point. -/
theorem blk1_read (c : Dev nD) (t : Fin cfg0.N) (p : Fin 10000) (q : Fin 128) :
    (iblk m c 1 t : Vec Ideal S10000x128 .f32) (ix2 p q) = V m c main_arg0 (ix2 p q) := by
  obtain ⟨e0, e1⟩ := idx_1 t
  show V m c main_arg0 (((cfg0.win 1).blk t).view.emb (ix2 p q)) = V m c main_arg0 (ix2 p q)
  refine congrArg (V m c main_arg0) (funext fun a => Fin.ext ?_)
  match a with
  | ⟨0, _⟩ => show win0_1.index t (0 : Fin 2) * 10000 + 1 * p.val = p.val; rw [e0]; omega
  | ⟨1, _⟩ => show win0_1.index t (1 : Fin 2) * 128 + 1 * q.val = q.val; rw [e1]; omega

/-- Window 2's block is its whole array at every point. -/
theorem blk2_read (c : Dev nD) (t : Fin cfg0.N) (p : Fin 128) (q : Fin 256) :
    (iblk m c 2 t : Vec Ideal S128x256 .f32) (ix2 p q) = V m c main_v0 (ix2 p q) := by
  obtain ⟨e0, e1⟩ := idx_2 t
  show V m c main_v0 (((cfg0.win 2).blk t).view.emb (ix2 p q)) = V m c main_v0 (ix2 p q)
  refine congrArg (V m c main_v0) (funext fun a => Fin.ext ?_)
  match a with
  | ⟨0, _⟩ => show win0_2.index t (0 : Fin 2) * 128 + 1 * p.val = p.val; rw [e0]; omega
  | ⟨1, _⟩ => show win0_2.index t (1 : Fin 2) * 256 + 1 * q.val = q.val; rw [e1]; omega

/-- Window 3's block is its whole array at every point. -/
theorem blk3_read (c : Dev nD) (t : Fin cfg0.N) (p : Fin 128) (q : Fin 256) :
    (iblk m c 3 t : Vec Ideal S128x256 .f32) (ix2 p q) = V m c main_v1 (ix2 p q) := by
  obtain ⟨e0, e1⟩ := idx_3 t
  show V m c main_v1 (((cfg0.win 3).blk t).view.emb (ix2 p q)) = V m c main_v1 (ix2 p q)
  refine congrArg (V m c main_v1) (funext fun a => Fin.ext ?_)
  match a with
  | ⟨0, _⟩ => show win0_3.index t (0 : Fin 2) * 128 + 1 * p.val = p.val; rw [e0]; omega
  | ⟨1, _⟩ => show win0_3.index t (1 : Fin 2) * 256 + 1 * q.val = q.val; rw [e1]; omega

/-- Window 4's block is its whole array at every point. -/
theorem blk4_read (c : Dev nD) (t : Fin cfg0.N) (p : Fin 1) (q : Fin 256) :
    (iblk m c 4 t : Vec Ideal S1x256 .f32) (ix2 p q) = V m c main_v2 (ix2 p q) := by
  obtain ⟨e0, e1⟩ := idx_4 t
  show V m c main_v2 (((cfg0.win 4).blk t).view.emb (ix2 p q)) = V m c main_v2 (ix2 p q)
  refine congrArg (V m c main_v2) (funext fun a => Fin.ext ?_)
  match a with
  | ⟨0, _⟩ => show win0_4.index t (0 : Fin 2) * 1 + 1 * p.val = p.val; rw [e0]; omega
  | ⟨1, _⟩ => show win0_4.index t (1 : Fin 2) * 256 + 1 * q.val = q.val; rw [e1]; omega

/-- Window 5's block is its whole array at every point. -/
theorem blk5_read (c : Dev nD) (t : Fin cfg0.N) (p : Fin 256) (q : Fin 256) :
    (iblk m c 5 t : Vec Ideal S256x256 .f32) (ix2 p q) = V m c main_arg4 (ix2 p q) := by
  obtain ⟨e0, e1⟩ := idx_5 t
  show V m c main_arg4 (((cfg0.win 5).blk t).view.emb (ix2 p q)) = V m c main_arg4 (ix2 p q)
  refine congrArg (V m c main_arg4) (funext fun a => Fin.ext ?_)
  match a with
  | ⟨0, _⟩ => show win0_5.index t (0 : Fin 2) * 256 + 1 * p.val = p.val; rw [e0]; omega
  | ⟨1, _⟩ => show win0_5.index t (1 : Fin 2) * 256 + 1 * q.val = q.val; rw [e1]; omega

/-- Window 6's block is its whole array at every point. -/
theorem blk6_read (c : Dev nD) (t : Fin cfg0.N) (p : Fin 1) (q : Fin 256) :
    (iblk m c 6 t : Vec Ideal S1x256 .f32) (ix2 p q) = V m c main_v3 (ix2 p q) := by
  obtain ⟨e0, e1⟩ := idx_6 t
  show V m c main_v3 (((cfg0.win 6).blk t).view.emb (ix2 p q)) = V m c main_v3 (ix2 p q)
  refine congrArg (V m c main_v3) (funext fun a => Fin.ext ?_)
  match a with
  | ⟨0, _⟩ => show win0_6.index t (0 : Fin 2) * 1 + 1 * p.val = p.val; rw [e0]; omega
  | ⟨1, _⟩ => show win0_6.index t (1 : Fin 2) * 256 + 1 * q.val = q.val; rw [e1]; omega

/-- Window 7's block is its whole array at every point. -/
theorem blk7_read (c : Dev nD) (t : Fin cfg0.N) (p : Fin 1) (q : Fin 256) :
    (iblk m c 7 t : Vec Ideal S1x256 .f32) (ix2 p q) = V m c main_v4 (ix2 p q) := by
  obtain ⟨e0, e1⟩ := idx_7 t
  show V m c main_v4 (((cfg0.win 7).blk t).view.emb (ix2 p q)) = V m c main_v4 (ix2 p q)
  refine congrArg (V m c main_v4) (funext fun a => Fin.ext ?_)
  match a with
  | ⟨0, _⟩ => show win0_7.index t (0 : Fin 2) * 1 + 1 * p.val = p.val; rw [e0]; omega
  | ⟨1, _⟩ => show win0_7.index t (1 : Fin 2) * 256 + 1 * q.val = q.val; rw [e1]; omega

/-- Window 8's block is its whole array at every point. -/
theorem blk8_read (c : Dev nD) (t : Fin cfg0.N) (p : Fin 1) (q : Fin 256) :
    (iblk m c 8 t : Vec Ideal S1x256 .f32) (ix2 p q) = V m c main_v5 (ix2 p q) := by
  obtain ⟨e0, e1⟩ := idx_8 t
  show V m c main_v5 (((cfg0.win 8).blk t).view.emb (ix2 p q)) = V m c main_v5 (ix2 p q)
  refine congrArg (V m c main_v5) (funext fun a => Fin.ext ?_)
  match a with
  | ⟨0, _⟩ => show win0_8.index t (0 : Fin 2) * 1 + 1 * p.val = p.val; rw [e0]; omega
  | ⟨1, _⟩ => show win0_8.index t (1 : Fin 2) * 256 + 1 * q.val = q.val; rw [e1]; omega

/-- Window 9's block is its whole array at every point. -/
theorem blk9_read (c : Dev nD) (t : Fin cfg0.N) (p : Fin 1) (q : Fin 1) :
    (iblk m c 9 t : Vec Ideal S1x1 .f32) (ix2 p q) = V m c main_v6 (ix2 p q) := by
  obtain ⟨e0, e1⟩ := idx_9 t
  show V m c main_v6 (((cfg0.win 9).blk t).view.emb (ix2 p q)) = V m c main_v6 (ix2 p q)
  refine congrArg (V m c main_v6) (funext fun a => Fin.ext ?_)
  match a with
  | ⟨0, _⟩ => show win0_9.index t (0 : Fin 2) * 1 + 1 * p.val = p.val; rw [e0]; omega
  | ⟨1, _⟩ => show win0_9.index t (1 : Fin 2) * 1 + 1 * q.val = q.val; rw [e1]; omega

/-- The stripe's own feature rows, loaded from the resident block at row 200 t. -/
theorem own_read (c : Dev nD) (t : Fin cfg0.N) (r : Fin 200) (f : Fin 128) :
    ownRows (grid0.coords t) (iblk m c 1 t : Vec Ideal S10000x128 .f32) (ix2 r f)
      = V m c main_arg0 (ix2 (node (stripe t) r) f) := by
  obtain ⟨e0, e1⟩ := off_own t
  show (iblk m c 1 t : Vec Ideal S10000x128 .f32)
      ((Rect.unit (s := S10000x128) (k0_off1 (grid0.coords t)) S200x128.size (k0_off1_inb (grid0.coords t))).emb (ix2 r f)) = _
  have hi : (Rect.unit (s := S10000x128) (k0_off1 (grid0.coords t)) S200x128.size (k0_off1_inb (grid0.coords t))).emb (ix2 r f)
      = ix2 (node (stripe t) r) f := funext fun a => Fin.ext (by
    match a with
    | ⟨0, _⟩ => show k0_off1 (grid0.coords t) (0 : Fin 2) + 1 * r.val = 200 * t.val + r.val; rw [e0]; omega
    | ⟨1, _⟩ => show k0_off1 (grid0.coords t) (1 : Fin 2) + 1 * f.val = f.val; rw [e1]; omega)
  rw [hi]
  exact blk1_read m c t _ _

/-! ## The arrays the host lines before the call wrote -/

theorem V_v0 (c : Dev nD) : (V m c main_v0 : Vec Ideal S128x256 .f32)
    = extractStridedSlice S128x256 ![0, 0] (m ((c.tc : Thread nD τ).loc main_arg2)) slices_S256x256_S128x256_0_0 := by
  show StableHlo.after hostOps0 (fun b => m (c, b)) (Proc.devRef .tc main_v0) = _
  after_results
theorem V_v1 (c : Dev nD) : (V m c main_v1 : Vec Ideal S128x256 .f32)
    = extractStridedSlice S128x256 ![128, 0] (m ((c.tc : Thread nD τ).loc main_arg2)) slices_S256x256_S128x256_128_0 := by
  show StableHlo.after hostOps0 (fun b => m (c, b)) (Proc.devRef .tc main_v1) = _
  after_results
theorem V_v2 (c : Dev nD) : (V m c main_v2 : Vec Ideal S1x256 .f32)
    = shapeCast S1x256 (m ((c.tc : Thread nD τ).loc main_arg3)) shapeCasts_S256_S1x256 := by
  show StableHlo.after hostOps0 (fun b => m (c, b)) (Proc.devRef .tc main_v2) = _
  after_results
  rfl
theorem V_v3 (c : Dev nD) : (V m c main_v3 : Vec Ideal S1x256 .f32)
    = shapeCast S1x256 (m ((c.tc : Thread nD τ).loc main_arg5)) shapeCasts_S256_S1x256 := by
  show StableHlo.after hostOps0 (fun b => m (c, b)) (Proc.devRef .tc main_v3) = _
  after_results
  rfl
theorem V_v4 (c : Dev nD) : (V m c main_v4 : Vec Ideal S1x256 .f32)
    = shapeCast S1x256 (m ((c.tc : Thread nD τ).loc main_arg6)) shapeCasts_S256_S1x256 := by
  show StableHlo.after hostOps0 (fun b => m (c, b)) (Proc.devRef .tc main_v4) = _
  after_results
  rfl
theorem V_v5 (c : Dev nD) : (V m c main_v5 : Vec Ideal S1x256 .f32)
    = shapeCast S1x256 (m ((c.tc : Thread nD τ).loc main_arg7)) shapeCasts_S256x1_S1x256 := by
  show StableHlo.after hostOps0 (fun b => m (c, b)) (Proc.devRef .tc main_v5) = _
  after_results
  rfl
theorem V_v6 (c : Dev nD) : (V m c main_v6 : Vec Ideal S1x1 .f32)
    = shapeCast S1x1 (m ((c.tc : Thread nD τ).loc main_arg8)) shapeCasts_S1_S1x1 := by
  show StableHlo.after hostOps0 (fun b => m (c, b)) (Proc.devRef .tc main_v6) = _
  after_results
  rfl

/-- The top half of the convolution's weight is its rows 0–127, the bottom half its rows 128–255. -/
theorem top_read (W : Vec Ideal S256x256 .f32) (f : Fin 128) (k : Fin 256) :
    extractStridedSlice S128x256 ![0, 0] W slices_S256x256_S128x256_0_0 (ix2 f k) = W (ix2 (lo f) k) :=
  slice2_axis0_apply 0 W slices_S256x256_S128x256_0_0 f k (lo f) (by show f.val = 0 + f.val; omega)
theorem bottom_read (W : Vec Ideal S256x256 .f32) (f : Fin 128) (k : Fin 256) :
    extractStridedSlice S128x256 ![128, 0] W slices_S256x256_S128x256_128_0 (ix2 f k) = W (ix2 (hi f) k) :=
  slice2_axis0_apply 128 W slices_S256x256_S128x256_128_0 f k (hi f) rfl

/-- The last layer's [256, 1] column laid as a [1, 256] row. -/
theorem col_row_read (W2 : Vec Ideal S256x1 .f32) (j : Fin 256) :
    shapeCast S1x256 W2 shapeCasts_S256x1_S1x256 (ix2 (0 : Fin 1) j) = W2 (ix2 j (0 : Fin 1)) := by
  refine shapeCast_apply W2 shapeCasts_S256x1_S1x256 _ _ ?_
  rw [Shape.rowMajor_val_two, Shape.rowMajor_val_two]
  show j.val * 1 + 0 = 0 * 256 + j.val
  omega

end Cert.KernelIdeal.KVal

end
-- ==== Proof.KernelPoint.lean ====
/-
  What the kernel's body stores at a grid point, read at one node of the stripe: from the body's loads — the stripe's
  rows of the adjacency, the whole feature array, the stripe's own feature rows, the two halves of the convolution's
  weight, the classifier's weight and the [1, 256] rows — the stored [1, 1, 200] block holds at (0, 0, r) the score
  `Cert.GcnSpec.bscore … r` of the stripe's node r. Three matrix products into a zero accumulator are plain sums over
  the shared coordinate; the lane reduction of the last layer is the sum over the 256 channels; the casts between a
  shape and itself are the identity; a [1, 256] row broadcast over the stripe reads the row.
-/
import proofs.«151753_g46969762349347_cont_8to1_c_541_7_alg».proof.Proof.Gen.KernelIdeal.Skeleton
import proofs.«151753_g46969762349347_cont_8to1_c_541_7_alg».proof.Proof.BlockSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Point

open Cert.KernelIdeal Cert.KernelIdeal.Gen Cert.GcnSpec

/-! ### The stripe's rows of the adjacency times the features -/

theorem lhsA_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsA_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhsA_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhsA_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Entry (p, c) of the product is the sum over the 10000 shared coordinates of row p of the left factor times column c of the right. -/
theorem matmulA_apply (l : FVec Ideal S200x10000 .f32) (r : FVec Ideal S10000x128 .f32) (p : Fin 200) (c : Fin 128) :
    matmul dot_S200x10000_S10000x128_S200x128_1_0_0_1_n_n none l r (constant (F := Ideal) S200x128 .f32 0x00000000#32) (ix2 p c)
      = ∑ k : Fin 10000, l (ix2 p k) * r (ix2 k c) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p c) ((ValueIdx.contrEquiv1 dot_S200x10000_S10000x128_S200x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S200x10000_S10000x128_S200x128_1_0_0_1_n_n.rhsIdx (ix2 p c) ((ValueIdx.contrEquiv1 dot_S200x10000_S10000x128_S200x128_1_0_0_1_n_n 10000 rfl rfl).symm k) = ix2 k c := funext fun a => Fin.ext (by
    match a with
    | ⟨0, _⟩ => exact (rhsA_0 _ _).trans hk
    | ⟨1, _⟩ => exact rhsA_1 _ _)
  rw [el, er]

/-! ### A [200, 128] block times one half of the convolution's weight -/

theorem lhsB_0 (i : S200x256.Idx) (q : dot_S200x128_S128x256_S200x256_1_0_0_1_n_n.contr.Idx) :
    (dot_S200x128_S128x256_S200x256_1_0_0_1_n_n.lhsIdx i q 0).val = (i 0).val := by
  unfold DotDims.lhsIdx
  rw [dif_neg (show ¬(0 : Fin S200x128.rank) ∈ dot_S200x128_S128x256_S200x256_1_0_0_1_n_n.lhsBatch by decide), dif_pos (show (0 : Fin S200x128.rank) ∈ dot_S200x128_S128x256_S200x256_1_0_0_1_n_n.lhsNonContracting by decide)]
  rfl
theorem lhsB_1 (i : S200x256.Idx) (q : dot_S200x128_S128x256_S200x256_1_0_0_1_n_n.contr.Idx) :
    (dot_S200x128_S128x256_S200x256_1_0_0_1_n_n.lhsIdx i q 1).val = (q ⟨0, by decide⟩).val :=
  dot_S200x128_S128x256_S200x256_1_0_0_1_n_n.lhsIdx_val_of_single rfl i q
theorem rhsB_0 (i : S200x256.Idx) (q : dot_S200x128_S128x256_S200x256_1_0_0_1_n_n.contr.Idx) :
    (dot_S200x128_S128x256_S200x256_1_0_0_1_n_n.rhsIdx i q 0).val = (q ⟨0, by decide⟩).val :=
  dot_S200x128_S128x256_S200x256_1_0_0_1_n_n.rhsIdx_val_of_single rfl i q
theorem rhsB_1 (i : S200x256.Idx) (q : dot_S200x128_S128x256_S200x256_1_0_0_1_n_n.contr.Idx) :
    (dot_S200x128_S128x256_S200x256_1_0_0_1_n_n.rhsIdx i q 1).val = (i 1).val := by
  unfold DotDims.rhsIdx
  rw [dif_neg (show ¬(1 : Fin S128x256.rank) ∈ dot_S200x128_S128x256_S200x256_1_0_0_1_n_n.rhsBatch by decide), dif_pos (show (1 : Fin S128x256.rank) ∈ dot_S200x128_S128x256_S200x256_1_0_0_1_n_n.rhsNonContracting by decide)]
  rfl

/-- Entry (p, c) of the product is the sum over the 128 shared coordinates of row p of the left factor times column c of the right. -/
theorem matmulB_apply (l : FVec Ideal S200x128 .f32) (r : FVec Ideal S128x256 .f32) (p : Fin 200) (c : Fin 256) :
    matmul dot_S200x128_S128x256_S200x256_1_0_0_1_n_n none l r (constant (F := Ideal) S200x256 .f32 0x00000000#32) (ix2 p c)
      = ∑ k : Fin 128, l (ix2 p k) * r (ix2 k c) := by
  simp only [matmul]
  rw [Ideal.matmul_constant_zero_apply, ← Equiv.sum_comp (ValueIdx.contrEquiv1 dot_S200x128_S128x256_S200x256_1_0_0_1_n_n 128 rfl rfl).symm]
  refine Finset.sum_congr rfl fun k _ => ?_
  have hk := ValueIdx.contrEquiv1_symm_val dot_S200x128_S128x256_S200x256_1_0_0_1_n_n 128 rfl rfl k
  have el : dot_S200x128_S128x256_S200x256_1_0_0_1_n_n.lhsIdx (ix2 p c) ((ValueIdx.contrEquiv1 dot_S200x128_S128x256_S200x256_1_0_0_1_n_n 128 rfl rfl).symm k) = ix2 p k := funext fun a => Fin.ext (by
    match a with
    | ⟨0, _⟩ => exact lhsB_0 _ _
    | ⟨1, _⟩ => exact (lhsB_1 _ _).trans hk)
  have er : dot_S200x128_S128x256_S200x256_1_0_0_1_n_n.rhsIdx (ix2 p c) ((ValueIdx.contrEquiv1 dot_S200x128_S128x256_S200x256_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ### The convolution's output times the classifier's first weight -/

theorem lhsC_0 (i : S200x256.Idx) (q : dot_S200x256_S256x256_S200x256_1_0_0_1_n_n.contr.Idx) :
    (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl
theorem lhsC_1 (i : S200x256.Idx) (q : dot_S200x256_S256x256_S200x256_1_0_0_1_n_n.contr.Idx) :
    (dot_S200x256_S256x256_S200x256_1_0_0_1_n_n.lhsIdx i q 1).val = (q ⟨0, by decide⟩).val :=
  dot_S200x256_S256x256_S200x256_1_0_0_1_n_n.lhsIdx_val_of_single rfl i q
theorem rhsC_0 (i : S200x256.Idx) (q : dot_S200x256_S256x256_S200x256_1_0_0_1_n_n.contr.Idx) :
    (dot_S200x256_S256x256_S200x256_1_0_0_1_n_n.rhsIdx i q 0).val = (q ⟨0, by decide⟩).val :=
  dot_S200x256_S256x256_S200x256_1_0_0_1_n_n.rhsIdx_val_of_single rfl i q
theorem rhsC_1 (i : S200x256.Idx) (q : dot_S200x256_S256x256_S200x256_1_0_0_1_n_n.contr.Idx) :
    (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl

/-- Entry (p, c) of the product is the sum over the 256 shared coordinates of row p of the left factor times column c of the right. -/
theorem matmulC_apply (l : FVec Ideal S200x256 .f32) (r : FVec Ideal S256x256 .f32) (p : Fin 200) (c : Fin 256) :
    matmul dot_S200x256_S256x256_S200x256_1_0_0_1_n_n none l r (constant (F := Ideal) S200x256 .f32 0x00000000#32) (ix2 p c)
      = ∑ k : Fin 256, l (ix2 p k) * r (ix2 k c) := by
  simp only [matmul]
  rw [Ideal.matmul_constant_zero_apply, ← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 p c) ((ValueIdx.contrEquiv1 dot_S200x256_S256x256_S200x256_1_0_0_1_n_n 256 rfl rfl).symm k) = ix2 p k := funext fun a => Fin.ext (by
    match a with
    | ⟨0, _⟩ => exact lhsC_0 _ _
    | ⟨1, _⟩ => exact (lhsC_1 _ _).trans hk)
  have er : dot_S200x256_S256x256_S200x256_1_0_0_1_n_n.rhsIdx (ix2 p c) ((ValueIdx.contrEquiv1 dot_S200x256_S256x256_S200x256_1_0_0_1_n_n 256 rfl rfl).symm k) = ix2 k c := funext fun a => Fin.ext (by
    match a with
    | ⟨0, _⟩ => exact (rhsC_0 _ _).trans hk
    | ⟨1, _⟩ => exact rhsC_1 _ _)
  rw [el, er]

/-! ### The last layer's lane reduction, and the stored block -/

/-- The sum along the channels of a [200, 256] block, read at node r. -/
theorem rowsum_apply (src : FVec Ideal S200x256 .f32) (hφ : FKind.Formats .f32)
    (hacc : (0x00000000#32 : BitVec 32) = FKind.add.neutral .f32 hφ) (r : Fin 200) :
    multiReduction .add [1] S200 src 0x00000000#32 reduces_S200x256_S200 hφ hacc (ix1 r)
      = ∑ k : Fin 256, src (ix2 r k) := by
  refine (Ideal.multiReduction_add_single src 0x00000000#32 reduces_S200x256_S200 hφ hacc (ix1 r)).trans ?_
  refine Finset.sum_congr rfl fun k _ => congrArg src ?_
  funext a
  match a with
  | ⟨0, _⟩ => rfl
  | ⟨1, _⟩ => rfl

/-- The one entry of a [1, 1] block. -/
theorem extract00 (v : Vec Ideal S1x1 .f32) (h : ∀ a, (![0, 0] : Fin S1x1.rank → Nat) a < S1x1.size a) :
    extractAt ![0, 0] v h = v (ix2 (0 : Fin 1) (0 : Fin 1)) := by
  unfold extractAt
  refine congrArg v ?_
  funext a
  match a with
  | ⟨0, _⟩ => rfl
  | ⟨1, _⟩ => rfl

/-- A [200] vector laid as a [1, 1, 200] block reads at (0, 0, r) its entry r. -/
theorem lay_apply (v : FVec Ideal S200 .f32) (r : Fin 200) :
    shapeCast S1x1x200 v shapeCasts_S200_S1x1x200 (ix3 (0 : Fin 1) (0 : Fin 1) r) = v (ix1 r) := by
  refine shapeCast_apply v shapeCasts_S200_S1x1x200 _ (ix1 r) ?_
  rw [Shape.rowMajor_val_one, Shape.rowMajor_val_three]
  show r.val = ((0 : Nat) * 1 + 0) * 200 + r.val
  omega

/-- The activations of the stripe's node r on channel j, from the body's loads. -/
theorem pay2_apply (v0 : Vec Ideal S200x10000 .f32) (v1 : Vec Ideal S10000x128 .f32) (v5 : Vec Ideal S200x128 .f32)
    (v6 v9 : Vec Ideal S128x256 .f32) (v13 : Vec Ideal S1x256 .f32) (v19 : Vec Ideal S256x256 .f32)
    (v21 v27 : Vec Ideal S1x256 .f32) (r : Fin 200) (j : Fin 256) :
    k0_pay2 (F := Ideal) v0 v1 v5 v6 v9 v13 v19 v21 v27 (ix2 r j) = bact v0 v1 v5 v6 v9 v13 v19 v21 v27 r j := by
  unfold k0_pay2
  simp only [select_apply, cmpf_apply, addf_apply, mulf_apply, maximumf_apply, broadcast_apply, shapeCast_self,
    broadcastTo_1b_ab_apply, matmulA_apply, matmulB_apply, matmulC_apply]
  rfl

/-- The stored block at (0, 0, r): the score of the stripe's node r. -/
theorem pay_apply (v0 : Vec Ideal S200x10000 .f32) (v1 : Vec Ideal S10000x128 .f32) (v5 : Vec Ideal S200x128 .f32)
    (v6 v9 : Vec Ideal S128x256 .f32) (v13 : Vec Ideal S1x256 .f32) (v19 : Vec Ideal S256x256 .f32)
    (v21 v27 v32 : Vec Ideal S1x256 .f32) (v37 : Vec Ideal S1x1 .f32) (r : Fin 200) :
    k0_pay1 (F := Ideal) (k0_pay2 (F := Ideal) v0 v1 v5 v6 v9 v13 v19 v21 v27) v32 v37 (ix3 (0 : Fin 1) (0 : Fin 1) r)
      = bscore v0 v1 v5 v6 v9 v13 v19 v21 v27 v32 v37 r := by
  unfold k0_pay1
  simp only [lay_apply, addf_apply, shapeCast_self]
  refine congrArg₂ (· + ·) ((rowsum_apply _ _ _ r).trans ?_) (extract00 _ _)
  refine Finset.sum_congr rfl fun k _ => ?_
  show k0_pay2 (F := Ideal) v0 v1 v5 v6 v9 v13 v19 v21 v27 (ix2 r k) * broadcastTo S200x256 v32 broadcasts_S1x256_S200x256 (ix2 r k)
    = bact v0 v1 v5 v6 v9 v13 v19 v21 v27 r k * v32 (ix2 (0 : Fin 1) k)
  rw [pay2_apply, broadcastTo_1b_ab_apply]

end Cert.KernelIdeal.Point

end
-- ==== Proof.KernelValue.lean ====
/-
  The kernel's result as one function of the argument arrays. At grid point t the body stores the scores of the nodes
  200 t … 200 t + 199 into block t of the [50, 1, 200] output array; the fifty blocks tile that array, so after the run it
  holds the score of node 200 p + r at (p, 0, r); the reshape after the call lays it out as the [10000] result, entry i
  the score of node i.
-/
import proofs.«151753_g46969762349347_cont_8to1_c_541_7_alg».proof.Proof.KernelReads
import proofs.«151753_g46969762349347_cont_8to1_c_541_7_alg».proof.Proof.KernelPoint

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.GcnSpec

variable (m : (ℓ : Loc nD τ sig) → Buf (Elt Ideal) ℓ) (ρ : Dev nD → PrngReg)

/-- The specification's score of node `i`, of the argument arrays as launched on core `c`. -/
abbrev scoreAt (c : Dev nD) (i : Fin 10000) : EReal :=
  score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i

/-- What the body's store holds at (0, 0, r) at point t: the score of node 200 t + r. -/
theorem block_val (c : Dev nD) (t : Fin cfg0.N) (r : Fin 200) :
    k0_pay1 (F := Ideal) (k0_pay2 (F := Ideal) (iblk m c 0 t) (iblk m c 1 t) (ownRows (grid0.coords t) (iblk m c 1 t)) (iblk m c 2 t) (iblk m c 3 t) (iblk m c 4 t) (iblk m c 5 t) (iblk m c 6 t) (iblk m c 7 t)) (iblk m c 8 t) (iblk m c 9 t) (ix3 (0 : Fin 1) (0 : Fin 1) r)
      = scoreAt m c (node (stripe t) r) := by
  refine (Point.pay_apply (iblk m c 0 t) (iblk m c 1 t) (ownRows (grid0.coords t) (iblk m c 1 t)) (iblk m c 2 t) (iblk m c 3 t) (iblk m c 4 t) (iblk m c 5 t) (iblk m c 6 t) (iblk m c 7 t) (iblk m c 8 t) (iblk m c 9 t) r).trans ?_
  exact bscore_eq_score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (iblk m c 0 t) (iblk m c 1 t) (ownRows (grid0.coords t) (iblk m c 1 t)) (iblk m c 2 t) (iblk m c 3 t) (iblk m c 4 t)
    (iblk m c 5 t) (iblk m c 6 t) (iblk m c 7 t) (iblk m c 8 t) (iblk m c 9 t) (node (stripe t) r) r
    (fun n => (blk0_read m c t r n).trans (congrFun (V_main_arg1 m c) _))
    (fun n f => (blk1_read m c t n f).trans (congrFun (V_main_arg0 m c) _))
    (fun f => (own_read m c t r f).trans (congrFun (V_main_arg0 m c) _))
    (fun k j => (blk5_read m c t k j).trans (congrFun (V_main_arg4 m c) _))
    (fun f k => (blk2_read m c t f k).trans ((congrFun (V_v0 m c) _).trans (top_read _ f k)))
    (fun f k => (blk3_read m c t f k).trans ((congrFun (V_v1 m c) _).trans (bottom_read _ f k)))
    (fun k => (blk4_read m c t 0 k).trans ((congrFun (V_v2 m c) _).trans (shapeCast_a_1a_apply _ _ 0 k)))
    (fun j => (blk6_read m c t 0 j).trans ((congrFun (V_v3 m c) _).trans (shapeCast_a_1a_apply _ _ 0 j)))
    (fun j => (blk7_read m c t 0 j).trans ((congrFun (V_v4 m c) _).trans (shapeCast_a_1a_apply _ _ 0 j)))
    (fun j => (blk8_read m c t 0 j).trans ((congrFun (V_v5 m c) _).trans (col_row_read _ j)))
    ((blk9_read m c t 0 0).trans ((congrFun (V_v6 m c) _).trans (shapeCast_a_1a_apply _ _ 0 0)))

/-- The [50, 1, 200] output array after the run: at (p, 0, r) the score of node 200 p + r. -/
def stripes (c : Dev nD) : Buf (Elt Ideal) ((c.tc : Thread nD τ).loc main_v7) := fun j =>
  scoreAt m c ⟨200 * (j 0).val + (j 2).val, by
    have h0 : (j 0).val < 50 := (j 0).isLt
    have h2 : (j 2).val < 200 := (j 2).isLt
    omega⟩

/-- What point t writes back is block t of `stripes`. -/
theorem flushed_eq (c : Dev nD) (t : Fin cfg0.N) :
    (dats m 0 c).flushed 10 t = ((cfg0.win 10).blk t).view.read (Elt Ideal) (stripes m c) := by
  show (cfg0.win 10).cut (grid0.coords t) ((dats m 0 c).after 10 t) = _
  rw [after0_10]
  unfold outsAt0
  rw [out_A]
  funext y
  obtain ⟨e0, e1, e2⟩ := idx_10 t
  have hy0 : (y 0).val = 0 := by have h : (y 0).val < 1 := (y 0).isLt; omega
  have hy1 : (y 1).val = 0 := by have h : (y 1).val < 1 := (y 1).isLt; omega
  have hy2 : (y 2).val < 200 := (y 2).isLt
  have hy : (cfg0.win 10).xinj (grid0.coords t) y = ix3 (0 : Fin 1) (0 : Fin 1) (⟨(y 2).val, hy2⟩ : Fin 200) :=
    funext fun a => Fin.ext (by
      match a with
      | ⟨0, _⟩ => exact hy0
      | ⟨1, _⟩ => exact hy1
      | ⟨2, _⟩ => rfl)
  refine ((congrArg _ hy).trans (block_val m c t ⟨(y 2).val, hy2⟩)).trans ?_
  show scoreAt m c _ = stripes m c (((cfg0.win 10).blk t).view.emb y)
  unfold stripes
  refine congrArg (scoreAt m c) (Fin.ext ?_)
  show 200 * t.val + (y 2).val
    = 200 * (win0_10.index t (0 : Fin 3) * 1 + 1 * (y 0).val) + (win0_10.index t (2 : Fin 3) * 200 + 1 * (y 2).val)
  rw [e0, e2, hy0]
  omega

/-- Every index of the output array is in the block of the point its first coordinate names. -/
theorem cover (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0 : Nat) < 50 := (i 0).isLt
  have h1 : (i 1 : Nat) < 1 := (i 1).isLt
  have h2 : (i 2 : Nat) < 200 := (i 2).isLt
  have hN : grid0.N = 50 := N_0
  obtain ⟨t, ht⟩ : ∃ t : Fin cfg0.N, t.val = (i 0 : Nat) := ⟨⟨(i 0 : Nat), by show (i 0 : Nat) < grid0.N; omega⟩, rfl⟩
  obtain ⟨e0, e1, e2⟩ := idx_10 t
  refine ⟨t, flush0_10 t, ?_⟩
  show i ∈ ((View.whole main_v7).slice (win0_10.rect t)).set
  rw [View.set_slice_whole, Rect.mem_set_unit]
  intro a
  match a with
  | ⟨0, _⟩ =>
    show win0_10.index t (0 : Fin 3) * 1 ≤ (i 0 : Nat) ∧ (i 0 : Nat) < win0_10.index t (0 : Fin 3) * 1 + 1
    rw [e0]; omega
  | ⟨1, _⟩ =>
    show win0_10.index t (1 : Fin 3) * 1 ≤ (i 1 : Nat) ∧ (i 1 : Nat) < win0_10.index t (1 : Fin 3) * 1 + 1
    rw [e1]; omega
  | ⟨2, _⟩ =>
    show win0_10.index t (2 : Fin 3) * 200 ≤ (i 2 : Nat) ∧ (i 2 : Nat) < win0_10.index t (2 : Fin 3) * 200 + 200
    rw [e2]; omega

/-- So the output array ends holding `stripes`. -/
theorem final (c : Dev nD) : (dats m 0 c).arrAt 10 cfg0.N = stripes m c :=
  (dats m 0 c).arrAt_eq_of_cover 10 (stripes m c) (fun t _ => flushed_eq m c t) (cover c)

/-- The [50, 1, 200] array of stripes laid out as [10000] is the array of all scores. -/
theorem stripes_flat (c : Dev nD) :
    shapeCast S10000 (stripes m c) shapeCasts_S50x1x200_S10000
      = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext j
  obtain ⟨i, rfl⟩ : ∃ i : Fin 10000, j = ix1 i := ⟨j 0, eq_ix1 j⟩
  have hi := i.isLt
  refine (shapeCast_apply (stripes m c) shapeCasts_S50x1x200_S10000 (ix1 i)
    (ix3 (⟨i.val / 200, by omega⟩ : Fin 50) (0 : Fin 1) (⟨i.val % 200, Nat.mod_lt _ (by decide)⟩ : Fin 200)) ?_).trans ?_
  · show (S50x1x200.rowMajor (ix3 (⟨i.val / 200, by omega⟩ : Fin 50) (0 : Fin 1) (⟨i.val % 200, Nat.mod_lt _ (by decide)⟩ : Fin 200))).val
      = (S10000.rowMajor (ix1 i)).val
    rw [Shape.rowMajor_val_three, Shape.rowMajor_val_one]
    show (i.val / 200 * 1 + 0) * 200 + i.val % 200 = i.val
    omega
  · show scoreAt m c _ = scoreAt m c i
    refine congrArg (scoreAt m c) (Fin.ext ?_)
    show 200 * (i.val / 200) + i.val % 200 = i.val
    omega

/-- The result after the reshape that follows the call. -/
theorem tail_eq (c : Dev nD) :
    Pipeline.afterTail₀ cfgs (dats m) 0 (V0 m) [hostOps1] c main_v8
      = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v8) = _
  after_results
  have e : Pipeline.withArrays spec0 c (V0 m c) (fun w => (dats m 0 c).arrAt w cfg0.N) (Proc.devRef .tc (Pipeline.arrRef spec0 10))
      = stripes m c :=
    (Pipeline.withArrays_arr spec0 launch0.win.arr_inj c _ _ 10).trans (final m c)
  refine Eq.trans ?_ (stripes_flat m c)
  funext i
  exact congrFun (congrArg (fun X => shapeCast S10000 X shapeCasts_S50x1x200_S10000) e) i

/-! ## The run, read -/

/-- Every weakly fair execution of the idealized kernel ends with the result array at the specification's scores of
    the argument arrays, and the arguments as launched. -/
theorem run : θ_run defs (onTc (τ := τ) (main (F := Ideal))) ⟨m, fun _ => 0, ρ⟩ (fun r => ∀ c : Dev nD,
      r.2.mem ((c.tc : Thread nD τ).loc main_v8) = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v8 (Pipeline.mem_restRefs_of main_v8 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KVal

end
-- ==== Proof.RefValue.lean ====
import proofs.«151753_g46969762349347_cont_8to1_c_541_7_alg».proof.Proof.Gen.ReferenceIdeal.Read
import proofs.«151753_g46969762349347_cont_8to1_c_541_7_alg».proof.Proof.Spec

/-!
  The reference program, read level by level at explicit coordinates, is the specification's score function.

  Each level of the reference is one array; read at node i (and a channel), it is one of the specification's
  functions:

    the first contraction        adj · x at (i, f)                      is  agg i f
    the joined array [x, agg]    at column f < 128 is x[i,f]; at column 128 + f it is the first contraction at (i, f)
    the second contraction       a sum over 256 columns of the joined array against W; split into its two halves of
                                 128, the first half reads x against the top rows of W, the second reads agg against
                                 the bottom rows
    plus the bias row, clamped   is pre1, then hid
    the third contraction + b1   is pre2; compared with zero, and the slope row times it chosen where it is negative,
                                 is act
    the last contraction + b2    at (i, 0) is score i; the flattening to one axis reads (i, 0) at i.

  Every contraction stays a symbolic sum: the summands are rewritten one index at a time, the sums are never unfolded.
-/

noncomputable section

open scoped BigOperators
open Idealize.ShloMosaic Idealize.ShloMosaic.ValueIdx
open Cert.ReferenceIdeal Cert.ReferenceIdeal.Read

namespace Cert.ReferenceIdeal.RefValue

/-! ## The composed index functions of the contractions and broadcasts, at coordinates -/

/-- Row i of adj against column f of x: the left operand is read at (i, n), the right at (n, f). -/
theorem lidx_v0 (i : Fin 10000) (f : Fin 128) (n : Fin 10000) : lidx_main_v0 (ix2 i f) n = ix2 i n :=
  funext fun a => Fin.ext (by match a with | ⟨0, _⟩ => rfl | ⟨1, _⟩ => rfl)
theorem ridx_v0 (i : Fin 10000) (f : Fin 128) (n : Fin 10000) : ridx_main_v0 (ix2 i f) n = ix2 n f :=
  funext fun a => Fin.ext (by match a with | ⟨0, _⟩ => rfl | ⟨1, _⟩ => rfl)

/-- Row i of the joined array against column k of W. -/
theorem lidx_v2 (i : Fin 10000) (k m : Fin 256) : lidx_main_v2 (ix2 i k) m = ix2 i m :=
  funext fun a => Fin.ext (by match a with | ⟨0, _⟩ => rfl | ⟨1, _⟩ => rfl)
theorem ridx_v2 (i : Fin 10000) (k m : Fin 256) : ridx_main_v2 (ix2 i k) m = ix2 m k :=
  funext fun a => Fin.ext (by match a with | ⟨0, _⟩ => rfl | ⟨1, _⟩ => rfl)

/-- Row i of the hidden layer against column j of W1. -/
theorem lidx_v7 (i : Fin 10000) (j k : Fin 256) : lidx_main_v7 (ix2 i j) k = ix2 i k :=
  funext fun a => Fin.ext (by match a with | ⟨0, _⟩ => rfl | ⟨1, _⟩ => rfl)
theorem ridx_v7 (i : Fin 10000) (j k : Fin 256) : ridx_main_v7 (ix2 i j) k = ix2 k j :=
  funext fun a => Fin.ext (by match a with | ⟨0, _⟩ => rfl | ⟨1, _⟩ => rfl)

/-- Row i of the activated layer against the one column of W2. -/
theorem lidx_v17 (i : Fin 10000) (j : Fin 256) : lidx_main_v17 (ix2 i (0 : Fin 1)) j = ix2 i j :=
  funext fun a => Fin.ext (by match a with | ⟨0, _⟩ => rfl | ⟨1, _⟩ => rfl)
theorem ridx_v17 (i : Fin 10000) (j : Fin 256) : ridx_main_v17 (ix2 i (0 : Fin 1)) j = ix2 j (0 : Fin 1) :=
  funext fun a => Fin.ext (by match a with | ⟨0, _⟩ => rfl | ⟨1, _⟩ => rfl)

/-- A row vector of 256 entries broadcast down the 10000 rows is read at its column. -/
theorem idx_v4 (i : Fin 10000) (k : Fin 256) : idx_main_v3 (idx_main_v4 (ix2 i k)) = ix1 k :=
  funext fun a => Fin.ext (by match a with | ⟨0, _⟩ => rfl)
theorem idx_v9 (i : Fin 10000) (k : Fin 256) : idx_main_v8 (idx_main_v9 (ix2 i k)) = ix1 k :=
  funext fun a => Fin.ext (by match a with | ⟨0, _⟩ => rfl)
theorem idx_v14 (i : Fin 10000) (k : Fin 256) : idx_main_v13 (idx_main_v14 (ix2 i k)) = ix1 k :=
  funext fun a => Fin.ext (by match a with | ⟨0, _⟩ => rfl)
/-- The one-entry bias of the last layer is read at its one index everywhere. -/
theorem idx_v19 (i : Fin 10000) : idx_main_v18 (idx_main_v19 (ix2 i (0 : Fin 1))) = ix1 (0 : Fin 1) :=
  funext fun a => Fin.ext (by match a with | ⟨0, _⟩ => rfl)
/-- Flattening [10000, 1] to [10000]: entry i is entry (i, 0), since i / 1 = i. -/
theorem idx_v21 (i : Fin 10000) : idx_main_v21 (ix1 i) = ix2 i (0 : Fin 1) :=
  funext fun a => Fin.ext (by
    match a with
    | ⟨0, _⟩ => exact Nat.div_one _
    | ⟨1, _⟩ => rfl)

section
variable (x0 : (⟨S10000x128, .f32⟩ : BufTy).Contents (Elt Ideal)) (x1 : (⟨S10000x10000, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 x6 : (⟨S256, .f32⟩ : BufTy).Contents (Elt Ideal))
  (x7 : (⟨S256x1, .f32⟩ : BufTy).Contents (Elt Ideal)) (x8 : (⟨S1, .f32⟩ : BufTy).Contents (Elt Ideal))

/-! ## The graph convolution -/

/-- adj · x at (i, f) is the aggregated feature: the sum over the nodes n of adj[i,n] · x[n,f]. -/
theorem v0_at (i : Fin 10000) (f : Fin 128) :
    val_main_v0 (F := Ideal) x0 x1 (ix2 i f) = GcnSpec.agg x0 x1 i f := by
  rw [val_main_v0_apply]
  unfold GcnSpec.agg
  exact Finset.sum_congr rfl fun n _ => by rw [lidx_v0, ridx_v0]

/-- The joined array at a column of its first half is x at that column … -/
theorem v1_lo (i : Fin 10000) (f : Fin 128) :
    val_main_v1 (F := Ideal) x0 x1 (ix2 i (GcnSpec.lo f)) = x0 (ix2 i f) := by
  unfold val_main_v1
  exact concatenate_pair_apply_left (1 : Fin S10000x256.rank) x0 (val_main_v0 (F := Ideal) x0 x1) _
    (ix2 i (GcnSpec.lo f)) rfl (ix2 i f) (fun b => match b with | ⟨0, _⟩ => rfl | ⟨1, _⟩ => rfl)

/-- … and at a column of its second half, 128 + f, it is adj · x at column f. -/
theorem v1_hi (i : Fin 10000) (f : Fin 128) :
    val_main_v1 (F := Ideal) x0 x1 (ix2 i (GcnSpec.hi f)) = val_main_v0 (F := Ideal) x0 x1 (ix2 i f) := by
  unfold val_main_v1
  exact concatenate_pair_apply_right (1 : Fin S10000x256.rank) x0 (val_main_v0 (F := Ideal) x0 x1) _
    (ix2 i (GcnSpec.hi f)) rfl rfl (ix2 i f)
    (fun b hb => match b, hb with | ⟨0, _⟩, _ => rfl | ⟨1, _⟩, hb => absurd rfl hb)
    (by show f.val + 128 = 128 + f.val; omega)

/-- The joined array against W: the 256 columns split in two halves of 128; the first half reads x against the top
    rows of W, the second reads the aggregated features against the bottom rows. -/
theorem v2_at (i : Fin 10000) (k : Fin 256) :
    val_main_v2 (F := Ideal) x0 x1 x2 (ix2 i k)
      = ∑ f : Fin 128, x0 (ix2 i f) * x2 (ix2 (GcnSpec.lo f) k)
        + ∑ f : Fin 128, GcnSpec.agg x0 x1 i f * x2 (ix2 (GcnSpec.hi f) k) := by
  rw [val_main_v2_apply]
  calc ∑ m : Fin 256, val_main_v1 (F := Ideal) x0 x1 (lidx_main_v2 (ix2 i k) m) * x2 (ridx_main_v2 (ix2 i k) m)
      = ∑ m : Fin 256, val_main_v1 (F := Ideal) x0 x1 (ix2 i m) * x2 (ix2 m k) :=
        Finset.sum_congr rfl fun m _ => by rw [lidx_v2, ridx_v2]
    _ = ∑ f : Fin 128, val_main_v1 (F := Ideal) x0 x1 (ix2 i (GcnSpec.lo f)) * x2 (ix2 (GcnSpec.lo f) k)
        + ∑ f : Fin 128, val_main_v1 (F := Ideal) x0 x1 (ix2 i (GcnSpec.hi f)) * x2 (ix2 (GcnSpec.hi f) k) :=
        GcnSpec.sum_halves fun m => val_main_v1 (F := Ideal) x0 x1 (ix2 i m) * x2 (ix2 m k)
    _ = _ := by
        congr 1
        · exact Finset.sum_congr rfl fun f _ => by rw [v1_lo]
        · exact Finset.sum_congr rfl fun f _ => by rw [v1_hi, v0_at]

/-- The bias of the convolution, broadcast to every node, is b[k] at (i, k). -/
theorem v4_at (i : Fin 10000) (k : Fin 256) : val_main_v4 (F := Ideal) x3 (ix2 i k) = x3 (ix1 k) := by
  rw [val_main_v4_apply, val_main_v3_apply, idx_v4]

/-- The zero the convolution is clamped at, everywhere. -/
theorem zero0_at (y : S10000x256.Idx) : val_main_call0_v0 (F := Ideal) y = GcnSpec.zf := by
  rw [val_main_call0_v0_apply, val_main_call0_cst_apply]
  rfl

/-- The convolution before its clamp. -/
theorem v5_at (i : Fin 10000) (k : Fin 256) :
    val_main_v5 (F := Ideal) x0 x1 x2 x3 (ix2 i k) = GcnSpec.pre1 x0 x1 x2 x3 i k := by
  rw [val_main_v5_apply, Ideal.addf_def, v2_at, v4_at]
  rfl

/-- The convolution's output: the maximum with zero. -/
theorem v6_at (i : Fin 10000) (k : Fin 256) :
    val_main_v6 (F := Ideal) x0 x1 x2 x3 (ix2 i k) = GcnSpec.hid x0 x1 x2 x3 i k := by
  rw [val_main_v6_apply, Ideal.maximumf_def, v5_at, zero0_at]
  rfl

/-! ## The classifier -/

/-- The hidden layer against W1. -/
theorem v7_at (i : Fin 10000) (j : Fin 256) :
    val_main_v7 (F := Ideal) x0 x1 x2 x3 x4 (ix2 i j) = ∑ k : Fin 256, GcnSpec.hid x0 x1 x2 x3 i k * x4 (ix2 k j) := by
  rw [val_main_v7_apply]
  exact Finset.sum_congr rfl fun k _ => by rw [lidx_v7, ridx_v7, v6_at]

/-- The first layer's bias, broadcast to every node. -/
theorem v9_at (i : Fin 10000) (j : Fin 256) : val_main_v9 (F := Ideal) x5 (ix2 i j) = x5 (ix1 j) := by
  rw [val_main_v9_apply, val_main_v8_apply, idx_v9]

/-- The first linear layer. -/
theorem v10_at (i : Fin 10000) (j : Fin 256) :
    val_main_v10 (F := Ideal) x0 x1 x2 x3 x4 x5 (ix2 i j) = GcnSpec.pre2 x0 x1 x2 x3 x4 x5 i j := by
  rw [val_main_v10_apply, Ideal.addf_def, v7_at, v9_at]
  rfl

/-- The zero the leaky unit compares with, everywhere. -/
theorem v11_at (y : S10000x256.Idx) : val_main_v11 (F := Ideal) y = GcnSpec.zf := by
  rw [val_main_v11_apply, val_main_cst_apply]
  rfl

/-- The slope of channel j, broadcast to every node. -/
theorem v14_at (i : Fin 10000) (j : Fin 256) : val_main_v14 (F := Ideal) x6 (ix2 i j) = x6 (ix1 j) := by
  rw [val_main_v14_apply, val_main_v13_apply, idx_v14]

/-- The leaky unit: the layer itself where it is at least zero, the slope times it elsewhere. -/
theorem v16_at (i : Fin 10000) (j : Fin 256) :
    val_main_v16 (F := Ideal) x0 x1 x2 x3 x4 x5 x6 (ix2 i j) = GcnSpec.act x0 x1 x2 x3 x4 x5 x6 i j := by
  rw [val_main_v16_apply, val_main_v12_apply, val_main_v15_apply, Ideal.mulf_def, v10_at, v11_at, v14_at]
  rfl

/-- The activated layer against the one column of W2. -/
theorem v17_at (i : Fin 10000) :
    val_main_v17 (F := Ideal) x0 x1 x2 x3 x4 x5 x6 x7 (ix2 i (0 : Fin 1))
      = ∑ j : Fin 256, GcnSpec.act x0 x1 x2 x3 x4 x5 x6 i j * x7 (ix2 j (0 : Fin 1)) := by
  rw [val_main_v17_apply]
  exact Finset.sum_congr rfl fun j _ => by rw [lidx_v17, ridx_v17, v16_at]

/-- The last bias, broadcast to every node. -/
theorem v19_at (i : Fin 10000) : val_main_v19 (F := Ideal) x8 (ix2 i (0 : Fin 1)) = x8 (ix1 (0 : Fin 1)) := by
  rw [val_main_v19_apply, val_main_v18_apply, idx_v19]

/-- The node's score, still as a column. -/
theorem v20_at (i : Fin 10000) :
    val_main_v20 (F := Ideal) x0 x1 x2 x3 x4 x5 x6 x7 x8 (ix2 i (0 : Fin 1))
      = GcnSpec.score x0 x1 x2 x3 x4 x5 x6 x7 x8 i := by
  rw [val_main_v20_apply, Ideal.addf_def, v17_at, v19_at]
  rfl

/-- The column flattened: entry i of the result is entry (i, 0) of the column. -/
theorem v21_at (i : Fin 10000) :
    val_main_v21 (F := Ideal) x0 x1 x2 x3 x4 x5 x6 x7 x8 (ix1 i)
      = val_main_v20 (F := Ideal) x0 x1 x2 x3 x4 x5 x6 x7 x8 (ix2 i (0 : Fin 1)) := by
  rw [val_main_v21_apply, idx_v21]

end

/-- The reference's result is the array of the specification's scores. -/
theorem scores_eq (x0 : (⟨S10000x128, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 x6 : (⟨S256, .f32⟩ : BufTy).Contents (Elt Ideal)) (x7 : (⟨S256x1, .f32⟩ : BufTy).Contents (Elt Ideal)) (x8 : (⟨S1, .f32⟩ : BufTy).Contents (Elt Ideal)) :
    Cert.ReferenceIdeal.Read.val_main_v21 (F := Ideal) x0 x1 x2 x3 x4 x5 x6 x7 x8 = Cert.GcnSpec.scores x0 x1 x2 x3 x4 x5 x6 x7 x8 := by
  funext j
  obtain ⟨i, rfl⟩ : ∃ i : Fin 10000, j = ix1 i := ⟨j 0, eq_ix1 j⟩
  rw [v21_at, v20_at]
  rfl

end Cert.ReferenceIdeal.RefValue

end
-- ==== Proof.lean ====
/-
  A graph-convolution layer followed by a two-layer classifier, fused into one kernel that walks the dense adjacency in
  stripes of 200 rows, against the plain array program. Over the extended reals both compute, for every node i,

    score i = (∑ⱼ act i j · W2[j,0]) + b2[0],   act = the per-channel leaky unit of  (∑ₖ hid i k · W1[k,j]) + b1[j],
    hid i k = max ((∑_f x[i,f] · W[f,k] + ∑_f (∑ₙ adj[i,n] · x[n,f]) · W[128+f,k]) + b[k]) 0.

  The array program multiplies the joined array [x, adj·x] by the whole weight W; the kernel multiplies x by the top
  half of W and adj·x by the bottom half and adds. The two are one value because a sum over 256 coordinates is the sum
  over the first 128 plus the sum over the last 128 — a law of commutative, associative addition, so the inputs'
  finiteness is never used. The kernel's matrix products into a zero accumulator and its lane reduction are the same
  plain sums as the array program's contractions; the stripes tile the nodes, stripe t holding nodes 200 t … 200 t + 199.

  The three programs' runs: the word-level kernel's and the idealized kernel's frames are the generated frame
  certificates; the array program's frame is its generated run with the result dropped. The idealization rewrote no
  operation, so there is nothing to preserve. The value claim pairs the idealized kernel's run, read as the score
  function of its arguments (Proof/KernelValue.lean over Proof/KernelPoint.lean, Proof/KernelReads.lean and
  Proof/KernelPiece.lean), with the array program's run, read as the same function (Proof/RefValue.lean).
-/
import proofs.«151753_g46969762349347_cont_8to1_c_541_7_alg».proof.Defs
import proofs.«151753_g46969762349347_cont_8to1_c_541_7_alg».proof.Proof.Gen.Kernel
import proofs.«151753_g46969762349347_cont_8to1_c_541_7_alg».proof.Proof.Gen.Kernel.Skeleton
import proofs.«151753_g46969762349347_cont_8to1_c_541_7_alg».proof.Proof.Gen.Kernel.Launch
import proofs.«151753_g46969762349347_cont_8to1_c_541_7_alg».proof.Proof.Gen.Kernel.Points
import proofs.«151753_g46969762349347_cont_8to1_c_541_7_alg».proof.Proof.Gen.Kernel.Frame
import proofs.«151753_g46969762349347_cont_8to1_c_541_7_alg».proof.Proof.Gen.KernelIdeal
import proofs.«151753_g46969762349347_cont_8to1_c_541_7_alg».proof.Proof.Gen.KernelIdeal.Skeleton
import proofs.«151753_g46969762349347_cont_8to1_c_541_7_alg».proof.Proof.Gen.KernelIdeal.Launch
import proofs.«151753_g46969762349347_cont_8to1_c_541_7_alg».proof.Proof.Gen.KernelIdeal.Points
import proofs.«151753_g46969762349347_cont_8to1_c_541_7_alg».proof.Proof.Gen.KernelIdeal.Frame
import proofs.«151753_g46969762349347_cont_8to1_c_541_7_alg».proof.Proof.Gen.ReferenceIdeal
import proofs.«151753_g46969762349347_cont_8to1_c_541_7_alg».proof.Proof.Gen.ReferenceIdeal.Run
import proofs.«151753_g46969762349347_cont_8to1_c_541_7_alg».proof.Proof.Gen.ReferenceIdeal.Read
import proofs.«151753_g46969762349347_cont_8to1_c_541_7_alg».proof.Proof.Gen.Pre_finite_inputs
import proofs.«151753_g46969762349347_cont_8to1_c_541_7_alg».proof.Proof.KernelValue
import proofs.«151753_g46969762349347_cont_8to1_c_541_7_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the specification's scores of arguments that agree. -/
theorem algebraic : Cert.algebraic_KernelIdeal_ReferenceIdeal := by
  intro m ρ m' ρ' _ hagree
  refine ⟨fun c => Cert.GcnSpec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v21_eq, Cert.ReferenceIdeal.RefValue.scores_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
